-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S625000x64 : Shape := ⟨2, ![625000, 64]⟩
abbrev S256x8 : Shape := ⟨2, ![256, 8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S625000x64 : S_.BroadcastsInDim S625000x64 (![] : Fin 0 → Fin S625000x64.rank)
  reducesTo_S625000x64_S_d0_1 : S625000x64.ReducesTo [0, 1] S_
  bcast_S_S256x8 : S_.BroadcastsInDim S256x8 (![] : Fin 0 → Fin S256x8.rank)
  reducesTo_S256x8_S_d0_1 : S256x8.ReducesTo [0, 1] S_
  bcast_S_S2x625000 : S_.BroadcastsInDim S2x625000 (![] : Fin 0 → Fin S2x625000.rank)
  reducesTo_S2x625000_S_d0_1 : S2x625000.ReducesTo [0, 1] S_

variable [Facts]

def fn_part1 {F : FTy → Type} [FloatOps F] (main_v13 : IVec S_ 1) (main_v15 : IVec S2x625000 1) (main_c_5 : IVec S_ 1) : IVec S_ 1 :=
  let main_v16 : IVec S_ 1 := (fun x v => Host.reduce IntOp.andi x v reducesTo_S2x625000_S_d0_1 h_S_) main_v15 main_c_5
  let main_v17 : IVec S_ 1 := andi main_v13 main_v16
  main_v17

def fn {F : FTy → Type} [FloatOps F] (main_arg0 : FVec F S50000x128 .f32) (main_arg1 : IVec S2x625000 32) (main_arg2 : FVec F S625000x64 .f32) (main_arg3 : FVec F S256x8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S625000x64 .f32 := Host.absf main_arg2
  let main_cst_0 : FVec F S_ .f32 := constant S_ .f32 0x7F800000#32
  let main_v5 : FVec F S625000x64 .f32 := broadcastInDim S625000x64 ![] bcast_S_S625000x64 main_cst_0
  let main_v6 : IVec S625000x64 1 := cmpf .olt main_v4 main_v5
  let main_c_1 : IVec S_ 1 := constantI S_ 1 1#1
  let main_v7 : IVec S_ 1 := (fun x v => Host.reduce IntOp.andi x v reducesTo_S625000x64_S_d0_1 h_S_) main_v6 main_c_1
  let main_v8 : IVec S_ 1 := andi main_v3 main_v7
  let main_v9 : FVec F S256x8 .f32 := Host.absf main_arg3
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_c_4 : IVec S_ 32 := constantI S_ 32 0#32
  let main_v14 : IVec S2x625000 32 := broadcastInDim S2x625000 ![] bcast_S_S2x625000 main_c_4
  let main_v15 : IVec S2x625000 1 := cmpi .sge main_arg1 main_v14
  let main_c_5 : IVec S_ 1 := constantI S_ 1 1#1
  fn_part1 (F := F) main_v13 main_v15 main_c_5
-- ==== Kernel.lean ====
abbrev S50000x128 : Shape := ⟨2, ![50000, 128]⟩
abbrev S2x625000 : Shape := ⟨2, ![2, 625000]⟩
abbrev S625000x64 : Shape := ⟨2, ![625000, 64]⟩
abbrev S256x8 : Shape := ⟨2, ![256, 8]⟩
abbrev S128x8 : Shape := ⟨2, ![128, 8]⟩
abbrev S128x16 : Shape := ⟨2, ![128, 16]⟩
abbrev S50000x16 : Shape := ⟨2, ![50000, 16]⟩
abbrev S5000x128 : Shape := ⟨2, ![5000, 128]⟩
abbrev S5000x16 : Shape := ⟨2, ![5000, 16]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S1 : Shape := ⟨1, ![1]⟩
abbrev S1x1 : Shape := ⟨2, ![1, 1]⟩
abbrev S625000x16 : Shape := ⟨2, ![625000, 16]⟩
abbrev S625000x72 : Shape := ⟨2, ![625000, 72]⟩
abbrev S5000x64 : Shape := ⟨2, ![5000, 64]⟩
abbrev S5000x72 : Shape := ⟨2, ![5000, 72]⟩
abbrev S5000x8 : Shape := ⟨2, ![5000, 8]⟩

abbrev nBuf : Space → Nat
  | .hbm => 75
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000x64, .f32⟩
  | .hbm, ⟨3, _⟩ => ⟨S256x8, .f32⟩
  | .hbm, ⟨4, _⟩ => ⟨S128x8, .f32⟩
  | .hbm, ⟨5, _⟩ => ⟨S128x8, .f32⟩
  | .hbm, ⟨6, _⟩ => ⟨S128x16, .f32⟩
  | .hbm, ⟨7, _⟩ => ⟨S50000x16, .f32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S_, .i32⟩
  | .hbm, ⟨16, _⟩ => ⟨S625000, .i32⟩
  | .hbm, ⟨17, _⟩ => ⟨S625000, .i32⟩
  | .hbm, ⟨18, _⟩ => ⟨S1x625000, .i32⟩
  | .hbm, ⟨19, _⟩ => ⟨S625000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S625000, .i32⟩
  | .hbm, ⟨24, _⟩ => ⟨S625000, .i32⟩
  | .hbm, ⟨25, _⟩ => ⟨S_, .i32⟩
  | .hbm, ⟨26, _⟩ => ⟨S625000, .i32⟩
  | .hbm, ⟨27, _⟩ => ⟨S625000, .i32⟩
  | .hbm, ⟨28, _⟩ => ⟨S_, .i32⟩
  | .hbm, ⟨29, _⟩ => ⟨S625000, .i32⟩
  | .hbm, ⟨30, _⟩ => ⟨S625000, .i1⟩
  | .hbm, ⟨31, _⟩ => ⟨S_, .i32⟩
  | .hbm, ⟨32, _⟩ => ⟨S625000, .i32⟩
  | .hbm, ⟨33, _⟩ => ⟨S625000, .i32⟩
  | .hbm, ⟨34, _⟩ => ⟨S625000, .i32⟩
  | .hbm, ⟨35, _⟩ => ⟨S625000x1, .i32⟩
  | .hbm, ⟨36, _⟩ => ⟨S1, .i32⟩
  | .hbm, ⟨37, _⟩ => ⟨S_, .i32⟩
  | .hbm, ⟨38, _⟩ => ⟨S625000x1, .i32⟩
  | .hbm, ⟨39, _⟩ => ⟨S625000x1, .i1⟩
  | .hbm, ⟨40, _⟩ => ⟨S1x1, .i32⟩
  | .hbm, ⟨41, _⟩ => ⟨S625000x1, .i32⟩
  | .hbm, ⟨42, _⟩ => ⟨S625000x1, .i1⟩
  | .hbm, ⟨43, _⟩ => ⟨S625000x1, .i1⟩
  | .hbm, ⟨44, _⟩ => ⟨S_, .i1⟩
  | .hbm, ⟨45, _⟩ => ⟨S625000, .i1⟩
  | .hbm, ⟨46, _⟩ => ⟨S625000x16, .f32⟩
  | .hbm, ⟨47, _⟩ => ⟨S625000x16, .i1⟩
  | .hbm, ⟨48, _⟩ => ⟨S_, .f32⟩
  | .hbm, ⟨49, _⟩ => ⟨S625000x16, .f32⟩
  | .hbm, ⟨50, _⟩ => ⟨S625000x16, .f32⟩
  | .hbm, ⟨51, _⟩ => ⟨S_, .i32⟩
  | .hbm, ⟨52, _⟩ => ⟨S625000, .i32⟩
  | .hbm, ⟨53, _⟩ => ⟨S625000, .i1⟩
  | .hbm, ⟨54, _⟩ => ⟨S_, .i32⟩
  | .hbm, ⟨55, _⟩ => ⟨S625000, .i32⟩
  | .hbm, ⟨56, _⟩ => ⟨S625000, .i32⟩
  | .hbm, ⟨57, _⟩ => ⟨S625000, .i32⟩
  | .hbm, ⟨58, _⟩ => ⟨S625000x1, .i32⟩
  | .hbm, ⟨59, _⟩ => ⟨S1, .i32⟩
  | .hbm, ⟨60, _⟩ => ⟨S_, .i32⟩
  | .hbm, ⟨61, _⟩ => ⟨S625000x1, .i32⟩
  | .hbm, ⟨62, _⟩ => ⟨S625000x1, .i1⟩
  | .hbm, ⟨63, _⟩ => ⟨S1x1, .i32⟩
  | .hbm, ⟨64, _⟩ => ⟨S625000x1, .i32⟩
  | .hbm, ⟨65, _⟩ => ⟨S625000x1, .i1⟩
  | .hbm, ⟨66, _⟩ => ⟨S625000x1, .i1⟩
  | .hbm, ⟨67, _⟩ => ⟨S_, .i1⟩
  | .hbm, ⟨68, _⟩ => ⟨S625000, .i1⟩
  | .hbm, ⟨69, _⟩ => ⟨S625000x16, .f32⟩
  | .hbm, ⟨70, _⟩ => ⟨S625000x16, .i1⟩
  | .hbm, ⟨71, _⟩ => ⟨S_, .f32⟩
  | .hbm, ⟨72, _⟩ => ⟨S625000x16, .f32⟩
  | .hbm, ⟨73, _⟩ => ⟨S625000x16, .f32⟩
  | .hbm, ⟨74, _⟩ => ⟨S625000x72, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x64, .f32⟩
  | .local _ .vmem, ⟨10, _⟩ => ⟨S5000x64, .f32⟩
  | .local _ .vmem, ⟨11, _⟩ => ⟨S5000x72, .f32⟩
  | .local _ .vmem, ⟨12, _⟩ => ⟨S5000x72, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v10 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v11 : Ref sig .tc := ⟨.hbm, 73, rfl⟩
abbrev main_v12 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x72 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S256x8_S128x8_0_0 : S256x8.Slices ![0, 0] S128x8
  slices_S256x8_S128x8_128_0 : S256x8.Slices ![128, 0] S128x8
  concatenates_S128x8_S128x8_S128x16_d1 : Shape.Concatenates [S128x8, S128x8] S128x16 1
  inb_S5000x128_S5000x128_0_0 : ∀ a, (![0, 0] : Fin 2 → Nat) a + S5000x128.size a ≤ S5000x128.size a
  h_S5000x128 : 0 < S5000x128.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S5000x16_S5000x16_0_0 : ∀ a, (![0, 0] : Fin 2 → Nat) a + S5000x16.size a ≤ S5000x16.size a
  h_S5000x16 : 0 < S5000x16.numel
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  slices_S2x625000_S1x625000_1_0 : S2x625000.Slices ![1, 0] S1x625000
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  reducesTo_S625000x1_S625000_d1 : S625000x1.ReducesTo [1] S625000
  h_S_ : 0 < S_.numel
  bcast_S625000_S625000x16_0 : S625000.BroadcastsInDim S625000x16 (![0] : Fin 1 → Fin S625000x16.rank)
  bcast_S_S625000x16 : S_.BroadcastsInDim S625000x16 (![] : Fin 0 → Fin S625000x16.rank)
  inb_S5000x16_S5000x8_0_0 : ∀ a, (![0, 0] : Fin 2 → Nat) a + S5000x8.size a ≤ S5000x16.size a
  h_S5000x8 : 0 < S5000x8.numel
  shapeCasts_S5000x8_S5000x8 : S5000x8.ShapeCasts S5000x8
  inb_S5000x16_S5000x8_0_8 : ∀ a, (![0, 8] : Fin 2 → Nat) a + S5000x8.size a ≤ S5000x16.size a
  inb_S5000x64_S5000x64_0_0 : ∀ a, (![0, 0] : Fin 2 → Nat) a + S5000x64.size a ≤ S5000x64.size a
  h_S5000x64 : 0 < S5000x64.numel
  concatenates_S5000x8_S5000x64_S5000x72_d1 : Shape.Concatenates [S5000x8, S5000x64] S5000x72 1
  inb_S5000x72_S5000x72_0_0 : ∀ a, (![0, 0] : Fin 2 → Nat) a + S5000x72.size a ≤ S5000x72.size a
  h_S5000x72 : 0 < S5000x72.numel
  dot_S5000x128_S128x16_S5000x16_1_0_0_1_n_n_wf : DotDims.WF S5000x128 S128x16 S5000x16 [1] [0] [0] [1] [] []
  gather_S50000x16_S625000x1_S625000x16_1_0_n_n_0_1_116_wf : GatherDims.WF S50000x16 S625000x1 S625000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S50000x16.size a
  hwx0_2 : ∀ i : grid0.Coords, EltTy.bits .f32 = 32 ∨ (Rect.block (s := S50000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S625000x16.size a
  hwx1_0 : ∀ i : grid1.Coords, EltTy.bits .f32 = 32 ∨ (Rect.block (s := S625000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S625000x16.size a
  hwx1_1 : ∀ i : grid1.Coords, EltTy.bits .f32 = 32 ∨ (Rect.block (s := S625000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S625000x64.size a
  hwx1_2 : ∀ i : grid1.Coords, EltTy.bits .f32 = 32 ∨ (Rect.block (s := S625000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x72.size a ≤ S625000x72.size a
  hwx1_3 : ∀ i : grid1.Coords, EltTy.bits .f32 = 32 ∨ (Rect.block (s := S625000x72) S5000x72.size (cc1_transform_3 i) (hinb1_3 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S625000x1_S625000x16_1_0_n_n_0_1_116 : GatherDims S50000x16 S625000x1 S625000x16 where
  offsetDims := [1]
  collapsedSliceDims := [0]
  operandBatchingDims := []
  startIndicesBatchingDims := []
  startIndexMap := [0]
  indexVectorDim := 1
  sliceSizes := ![1, 16]
  wf := gather_S50000x16_S625000x1_S625000x16_1_0_n_n_0_1_116_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x72.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S625000x64 : Shape := ⟨2, ![625000, 64]⟩
abbrev S256x8 : Shape := ⟨2, ![256, 8]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S128x8 : Shape := ⟨2, ![128, 8]⟩
abbrev S625000x8 : Shape := ⟨2, ![625000, 8]⟩
abbrev S625000x72 : Shape := ⟨2, ![625000, 72]⟩

abbrev nBuf : Space → Nat
  | .hbm => 35
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S625000x64, .f32⟩
  | .hbm, ⟨3, _⟩ => ⟨S256x8, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S128x8, .f32⟩
  | .hbm, ⟨18, _⟩ => ⟨S625000x8, .f32⟩
  | .hbm, ⟨19, _⟩ => ⟨S_, .i32⟩
  | .hbm, ⟨20, _⟩ => ⟨S625000, .i32⟩
  | .hbm, ⟨21, _⟩ => ⟨S625000, .i1⟩
  | .hbm, ⟨22, _⟩ => ⟨S_, .i32⟩
  | .hbm, ⟨23, _⟩ => ⟨S625000, .i32⟩
  | .hbm, ⟨24, _⟩ => ⟨S625000, .i32⟩
  | .hbm, ⟨25, _⟩ => ⟨S625000, .i32⟩
  | .hbm, ⟨26, _⟩ => ⟨S625000x1, .i32⟩
  | .hbm, ⟨27, _⟩ => ⟨S625000x128, .f32⟩
  | .hbm, ⟨28, _⟩ => ⟨S128x8, .f32⟩
  | .hbm, ⟨29, _⟩ => ⟨S625000x8, .f32⟩
  | .hbm, ⟨30, _⟩ => ⟨S625000x8, .f32⟩
  | .hbm, ⟨31, _⟩ => ⟨S_, .f32⟩
  | .hbm, ⟨32, _⟩ => ⟨S625000x8, .f32⟩
  | .hbm, ⟨33, _⟩ => ⟨S625000x8, .f32⟩
  | .hbm, ⟨34, _⟩ => ⟨S625000x72, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_cst : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  slices_S256x8_S128x8_0_0 : S256x8.Slices ![0, 0] S128x8
  slices_S256x8_S128x8_128_0 : S256x8.Slices ![128, 0] S128x8
  bcast_S_S625000x8 : S_.BroadcastsInDim S625000x8 (![] : Fin 0 → Fin S625000x8.rank)
  concatenates_S625000x8_S625000x64_S625000x72_d1 : Shape.Concatenates [S625000x8, S625000x64] S625000x72 1
  gather_S50000x128_S625000x1_S625000x128_1_0_n_n_0_1_1128_wf : GatherDims.WF S50000x128 S625000x1 S625000x128 [1] [0] [] [0] [] 1 ![1, 128]
  dot_S625000x128_S128x8_S625000x8_1_0_0_1_n_n_wf : DotDims.WF S625000x128 S128x8 S625000x8 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def dot_S625000x128_S128x8_S625000x8_1_0_0_1_n_n : DotDims S625000x128 S128x8 S625000x8 where
  lhsContracting := [1]
  rhsContracting := [0]
  lhsNonContracting := [0]
  rhsNonContracting := [1]
  lhsBatch := []
  rhsBatch := []
  wf := dot_S625000x128_S128x8_S625000x8_1_0_0_1_n_n_wf

class Facts : Prop extends Facts₀ where

variable [Facts]
-- ==== Proof.LibGatherRows.lean ====
/-
  Row gather read at an index. jnp's `table[idx]` over a rank-2 table `[N, C]` at a column of `R` row
  numbers prints as a `stablehlo.gather` with start indices `[R, 1]`, the table's row axis collapsed and
  start-indexed, the column axis an offset axis of full width, and the index vector on axis 1. Result element
  `(p, q)` is the table at row "the `p`-th start index, read as a signed integer and clamped into
  `[0, N − 1]`" and column `q`: the clamp is the gather's own (each slice must fit inside the operand).
-/
import Idealize.ShloMosaic.PureOps.ShapeOps
import Idealize.ShloMosaic.Lib.ValueIdx

namespace Cert.Lib.GatherRows

open Idealize.ShloMosaic Idealize.ShloMosaic.ValueIdx

/-- Row `p` of an `[R, 1]` column of start indices. -/
abbrev col {R : Nat} (p : Fin R) : (⟨2, ![R, 1]⟩ : Shape).Idx := ix2 p (0 : Fin 1)

/-- The row a signed 32-bit (or any width) word names in a table of `N` rows once the gather has clamped it:
    negative words name row 0, words past the end the last row. -/
def row {w : Nat} (N : Nat) (hN : 0 < N) (a : BitVec w) : Fin N := ⟨min a.toInt.toNat (N - 1), by omega⟩

/-- THE ROW GATHER AT `(p, q)`: the table at the clamped row the `p`-th start index names, column `q`.
    The hypotheses are the printed dimension numbers, each closed by `rfl` at a program's record. -/
theorem gather_rows_apply {α : Type} {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (p : Fin R) (q : Fin C) :
    Host.gather d x idx (ix2 p q) = x (ix2 (row N hN (idx (col p))) q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (col p)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (col p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hall : ∀ X ∈ d.batchDims, X = 0 := by
        intro X hX
        have hX' : X ∈ (⟨2, ![R, C]⟩ : Shape).kept d.offsetDims := hX
        rw [hoff] at hX'
        revert hX'
        simp [Shape.kept]
        omega
      have key : ∀ X : Fin 2, X = 0 → (ix2 p q X).val = p.val := by rintro _ rfl; rfl
      exact key _ (hall _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    simp only [Nat.add_zero, GatherDims.start, dif_neg hm, Nat.zero_add, GatherDims.offCoord, dif_pos hk]
    have hall : ∀ X ∈ d.offsetDims, X = 1 := by rw [hoff]; simp
    have key : ∀ X : Fin 2, X = 1 → (ix2 p q X).val = q.val := by rintro _ rfl; rfl
    exact key _ (hall _ (List.getElem_mem _))

end Cert.Lib.GatherRows
-- ==== Proof.EdgeSpec.lean ====
/-
  What both programs compute, index by index, on the extended reals.

  Inputs: node features `x0 : [50000, 128]`, an edge list `adj : [2, 625000]` of signed node ids (row 0 the
  sources, row 1 the targets), edge features `x1 : [625000, 64]` and an attention matrix `w : [256, 8]` whose
  first 128 rows act on the source's features and whose last 128 rows act on the target's.

  The result `lift` is `[625000, 72]`: for edge `e` and head `h < 8`,
      max (∑ₖ x0[s, k] · w[k, h] + ∑ₖ x0[t, k] · w[128 + k, h]) 0,
  with `s`, `t` the rows the edge's two ids name (clamped into the table), followed by the 64 edge features.

  One program forms these sums edge by edge from gathered feature rows. The other first multiplies every node's
  features by the two halves of `w` laid side by side (a `[50000, 16]` table: columns 0–7 the source scores,
  8–15 the target scores), then gathers table rows. Row selection commutes with a matrix product taken row by row,
  so the sums are literally the same sums: `combine_table`. No distributivity is used, hence no finiteness.
-/
import Idealize.ShloMosaic.PureOps.Ideal
import Idealize.ShloMosaic.PureOps.Ideal.Laws
import Idealize.ShloMosaic.Lib.ValueIdx
import Idealize.ShloMosaic.Lib.Affine
import proofs.«405968_j67319317397857_3_alg».proof.Proof.LibGatherRows

noncomputable section

open scoped BigOperators

namespace Cert.EdgeLift

open Idealize.ShloMosaic Idealize.ShloMosaic.ValueIdx Cert.Lib.GatherRows

abbrev SNode : Shape := ⟨2, ![50000, 128]⟩
abbrev SAdj : Shape := ⟨2, ![2, 625000]⟩
abbrev SEdge : Shape := ⟨2, ![625000, 64]⟩
abbrev SAtt : Shape := ⟨2, ![256, 8]⟩
abbrev SPair : Shape := ⟨2, ![128, 16]⟩
abbrev STable : Shape := ⟨2, ![50000, 16]⟩
abbrev SPicked : Shape := ⟨2, ![625000, 16]⟩
abbrev SOut : Shape := ⟨2, ![625000, 72]⟩

/-- The table row a signed node id names once clamped: negative ids name row 0, ids past the end row 49999. -/
abbrev node (a : BitVec 32) : Fin 50000 := row 50000 (by decide) a

/-- A non-negative word is not below zero, so a "wrap a negative index around" `select` keeps it. -/
theorem keep_of_nonneg (a b : BitVec 32) (ha : 0 ≤ a.toInt) :
    Scalar.select (IntOp.cmpi .slt a 0#32) b a = a := by
  have hc : ¬ IntOp.cmpi .slt a 0#32 = 1 := fun hh => by
    have h1 := IntOp.cmpi_slt.1 hh
    have h0 : (0#32 : BitVec 32).toInt = 0 := by decide
    omega
  unfold Scalar.select
  exact if_neg hc

/-- A signed word clipped into `[0, 49999]`: the larger of it and 0, then the smaller of that and 49999. -/
def clip (a : BitVec 32) : BitVec 32 := IntOp.minsi 49999#32 (IntOp.maxsi 0#32 a)

/-- The clipped word's integer value. -/
theorem clip_toInt (a : BitVec 32) : (clip a).toInt = min (max a.toInt 0) 49999 := by
  have h0 : (0#32 : BitVec 32).toInt = 0 := by decide
  have h1 : (49999#32 : BitVec 32).toInt = 49999 := by decide
  unfold clip IntOp.minsi IntOp.maxsi
  by_cases ha : a.slt 0#32
  · rw [if_pos ha]
    have ha' := BitVec.slt_iff_toInt_lt.1 ha
    by_cases hb : (49999#32 : BitVec 32).slt 0#32
    · have := BitVec.slt_iff_toInt_lt.1 hb; omega
    · rw [if_neg hb]; omega
  · rw [if_neg ha]
    have ha' : ¬ a.toInt < (0#32 : BitVec 32).toInt := fun h => ha (BitVec.slt_iff_toInt_lt.2 h)
    by_cases hb : (49999#32 : BitVec 32).slt a
    · rw [if_pos hb]; have := BitVec.slt_iff_toInt_lt.1 hb; omega
    · rw [if_neg hb]
      have hb' : ¬ (49999#32 : BitVec 32).toInt < a.toInt := fun h => hb (BitVec.slt_iff_toInt_lt.2 h)
      omega

theorem clip_nonneg (a : BitVec 32) : 0 ≤ (clip a).toInt := by rw [clip_toInt]; omega
theorem clip_le (a : BitVec 32) : (clip a).toInt ≤ 49999 := by rw [clip_toInt]; omega

/-- Clipping first changes nothing about the row a word names: the table's own clamp is the same clip. -/
theorem node_clip (a : BitVec 32) : node (clip a) = node a := by
  apply Fin.ext
  show min (clip a).toInt.toNat (50000 - 1) = min a.toInt.toNat (50000 - 1)
  rw [clip_toInt]
  omega

/-- Node `n`'s features against the block of 128 rows of `w` starting at row `off`, head `h`. -/
def halfScore (x0 : SNode.Idx → EReal) (w : SAtt.Idx → EReal) (n : Fin 50000) (off : Nat) (hoff : off + 128 ≤ 256)
    (h : Fin 8) : EReal :=
  ∑ k : Fin 128, x0 (ix2 n k) * w (ix2 (⟨off + k.val, by omega⟩ : Fin 256) h)

/-- The result at edge `e`, column `c`. -/
def liftAt (x0 : SNode.Idx → EReal) (adj : SAdj.Idx → BitVec 32) (x1 : SEdge.Idx → EReal) (w : SAtt.Idx → EReal)
    (e : Fin 625000) (c : Fin 72) : EReal :=
  if h : c.val < 8 then
    max (halfScore x0 w (node (adj (ix2 (0 : Fin 2) e))) 0 (by omega) ⟨c.val, h⟩
      + halfScore x0 w (node (adj (ix2 (1 : Fin 2) e))) 128 (by omega) ⟨c.val, h⟩) 0
  else x1 (ix2 e (⟨c.val - 8, by omega⟩ : Fin 64))

/-- THE RESULT as one function of the argument arrays. -/
def lift (x0 : SNode.Idx → EReal) (adj : SAdj.Idx → BitVec 32) (x1 : SEdge.Idx → EReal) (w : SAtt.Idx → EReal) :
    SOut.Idx → EReal :=
  fun j => liftAt x0 adj x1 w ⟨(j 0).val, idx2_lt0 j⟩ ⟨(j 1).val, idx2_lt1 j⟩

/-- The two halves of the attention matrix side by side: columns 0–7 are rows 0–127 of `w`, columns 8–15 rows 128–255. -/
def sideBySide (w : SAtt.Idx → EReal) : SPair.Idx → EReal := fun i =>
  if h : (i 1).val < 8 then w (ix2 (⟨(i 0).val, by have := idx2_lt0 i; omega⟩ : Fin 256) (⟨(i 1).val, h⟩ : Fin 8))
  else w (ix2 (⟨128 + (i 0).val, by have := idx2_lt0 i; omega⟩ : Fin 256) (⟨(i 1).val - 8, by have := idx2_lt1 i; omega⟩ : Fin 8))

/-- The node table (over any number `R` of nodes: all of them, or one block): every node's features times a
    `[128, 16]` matrix. -/
def table {R : Nat} (x0 : (⟨2, ![R, 128]⟩ : Shape).Idx → EReal) (wc : SPair.Idx → EReal) :
    (⟨2, ![R, 16]⟩ : Shape).Idx → EReal := fun i =>
  ∑ k : Fin 128, x0 (ix2 (⟨(i 0).val, idx2_lt0 i⟩ : Fin R) k) * wc (ix2 k (⟨(i 1).val, idx2_lt1 i⟩ : Fin 16))

/-- A block of consecutive nodes gives the same block of the table: the product is taken node by node. -/
theorem table_block {R R' : Nat} (x0 : (⟨2, ![R, 128]⟩ : Shape).Idx → EReal) (wc : SPair.Idx → EReal)
    (base : Nat) (hb : base + R' ≤ R) (y : (⟨2, ![R', 16]⟩ : Shape).Idx) :
    table (R := R')
        (fun i => x0 (ix2 (⟨base + (i 0).val, by have := idx2_lt0 i; omega⟩ : Fin R) (⟨(i 1).val, idx2_lt1 i⟩ : Fin 128))) wc y
      = table x0 wc (ix2 (⟨base + (y 0).val, by have := idx2_lt0 y; omega⟩ : Fin R) (⟨(y 1).val, idx2_lt1 y⟩ : Fin 16)) := rfl

/-- The table's rows picked by row `r` of the edge list (0 the sources, 1 the targets). -/
def picked (T : STable.Idx → EReal) (adj : SAdj.Idx → BitVec 32) (r : Fin 2) : SPicked.Idx → EReal := fun i =>
  T (ix2 (node (adj (ix2 r (⟨(i 0).val, idx2_lt0 i⟩ : Fin 625000)))) (⟨(i 1).val, idx2_lt1 i⟩ : Fin 16))

/-- Per edge (over any number `R` of edges: the whole list, or one block of it): the source rows' first eight columns
    plus the target rows' last eight, clamped at zero, then the edge's own 64 features. -/
def combine {R : Nat} (a b : (⟨2, ![R, 16]⟩ : Shape).Idx → EReal) (x1 : (⟨2, ![R, 64]⟩ : Shape).Idx → EReal) :
    (⟨2, ![R, 72]⟩ : Shape).Idx → EReal := fun j =>
  if h : (j 1).val < 8 then
    max (a (ix2 (⟨(j 0).val, idx2_lt0 j⟩ : Fin R) (⟨(j 1).val, by omega⟩ : Fin 16))
      + b (ix2 (⟨(j 0).val, idx2_lt0 j⟩ : Fin R) (⟨8 + (j 1).val, by omega⟩ : Fin 16))) 0
  else x1 (ix2 (⟨(j 0).val, idx2_lt0 j⟩ : Fin R) (⟨(j 1).val - 8, by have := idx2_lt1 j; omega⟩ : Fin 64))

/-- A block of consecutive edges combines to the same block of the whole: `combine` works edge by edge. Stated for
    the `R'` edges from `base` on, each input read at the shifted row. -/
theorem combine_block {R R' : Nat} (a b : (⟨2, ![R, 16]⟩ : Shape).Idx → EReal) (x1 : (⟨2, ![R, 64]⟩ : Shape).Idx → EReal)
    (base : Nat) (hb : base + R' ≤ R) (y : (⟨2, ![R', 72]⟩ : Shape).Idx) :
    combine (R := R')
        (fun i => a (ix2 (⟨base + (i 0).val, by have := idx2_lt0 i; omega⟩ : Fin R) (⟨(i 1).val, idx2_lt1 i⟩ : Fin 16)))
        (fun i => b (ix2 (⟨base + (i 0).val, by have := idx2_lt0 i; omega⟩ : Fin R) (⟨(i 1).val, idx2_lt1 i⟩ : Fin 16)))
        (fun i => x1 (ix2 (⟨base + (i 0).val, by have := idx2_lt0 i; omega⟩ : Fin R) (⟨(i 1).val, idx2_lt1 i⟩ : Fin 64))) y
      = combine a b x1 (ix2 (⟨base + (y 0).val, by have := idx2_lt0 y; omega⟩ : Fin R) (⟨(y 1).val, idx2_lt1 y⟩ : Fin 72)) := by
  unfold combine
  by_cases h : (y 1).val < 8
  · rw [dif_pos h, dif_pos (show ((ix2 (⟨base + (y 0).val, by have := idx2_lt0 y; omega⟩ : Fin R) (⟨(y 1).val, idx2_lt1 y⟩ : Fin 72) : (⟨2, ![R, 72]⟩ : Shape).Idx) 1).val < 8 from h)]
    rfl
  · rw [dif_neg h, dif_neg (show ¬ ((ix2 (⟨base + (y 0).val, by have := idx2_lt0 y; omega⟩ : Fin R) (⟨(y 1).val, idx2_lt1 y⟩ : Fin 72) : (⟨2, ![R, 72]⟩ : Shape).Idx) 1).val < 8 from h)]
    rfl

/-- ROW SELECTION COMMUTES WITH THE ROW-BY-ROW PRODUCT: combining rows picked from the node table is the result. The
    picked row's entry in column `h` is the source's sum against rows 0–127 of `w`, in column `8 + h` the target's
    against rows 128–255: term for term the sums of `halfScore`. -/
theorem combine_table (x0 : SNode.Idx → EReal) (adj : SAdj.Idx → BitVec 32) (x1 : SEdge.Idx → EReal) (w : SAtt.Idx → EReal) :
    combine (picked (table x0 (sideBySide w)) adj 0) (picked (table x0 (sideBySide w)) adj 1) x1 = lift x0 adj x1 w := by
  funext j
  unfold combine lift liftAt
  by_cases h : (j 1).val < 8
  · rw [dif_pos h, dif_pos h]
    congr 2
    · unfold picked table halfScore sideBySide
      refine Finset.sum_congr rfl fun k _ => ?_
      simp only []
      rw [dif_pos (show ((ix2 k (⟨(j 1).val, by omega⟩ : Fin 16) : SPair.Idx) 1).val < 8 from h)]
      congr 3
      exact Fin.ext (Nat.zero_add _).symm
    · unfold picked table halfScore sideBySide
      refine Finset.sum_congr rfl fun k _ => ?_
      simp only []
      rw [dif_neg (show ¬ ((ix2 k (⟨8 + (j 1).val, by omega⟩ : Fin 16) : SPair.Idx) 1).val < 8 from by
        show ¬ 8 + (j 1).val < 8; omega)]
      congr 3
      exact Fin.ext (by show 8 + (j 1).val - 8 = (j 1).val; omega)
  · rw [dif_neg h, dif_neg h]

end Cert.EdgeLift

end
-- ==== Proof.LibAllOnes.lean ====
/-
  A reduce by `and` of an `i1` array whose every element is 1, started from 1, is 1 at every result index: the
  converse of reading `jnp.all` back. (A `stablehlo.reduce` at an index is a left fold over the operand indices
  that drop to it, from the initial value's element.)
-/
import Idealize.ShloMosaic.Lib.ReduceAll

namespace Cert.Lib.AllOnes

open Idealize.ShloMosaic

/-- A left fold by `and` from 1 over ones is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduce by `and`, from an initial value that is 1, of an array that is 1 everywhere is 1 everywhere. -/
theorem reduce_andi_of_all_one {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_of_all_one x hx _

end Cert.Lib.AllOnes
-- ==== Proof.TakeRows.lean ====
/-
  The host operations between the two kernel regions, as functions, and what they pick.
  Each row of the edge list is clipped into `[0, 49999]` (`clipIds`); then `takeRows` looks the clipped ids up in the
  node table: it wraps negative ids around (none is left after the clip), gathers the table's rows, and replaces a
  row whose id is outside `[0, 49999]` by a fill value (none is: the clip put every id inside). So, whatever the
  edge list holds, row `e` of the picked array is the table's row `node id`: the clip is the same clamp the table's
  own lookup applies.
-/
import proofs.«405968_j67319317397857_3_alg».proof.Proof.Gen.KernelIdeal
import proofs.«405968_j67319317397857_3_alg».proof.Proof.EdgeSpec
import proofs.«405968_j67319317397857_3_alg».proof.Proof.LibAllOnes
import Idealize.ShloMosaic.Lib.Pipeline.Value

noncomputable section

namespace Cert.KernelIdeal.TakeRows

open Cert.KernelIdeal Cert.KernelIdeal.Gen Idealize.ShloMosaic Idealize.ShloMosaic.TcCoe
open Idealize.ShloMosaic.ValueIdx Cert.EdgeLift Cert.Lib.GatherRows Cert.Lib.AllOnes

/-! ## The operations -/

/-- One row of the edge list as a vector of ids: row `0` the sources, row `1` the targets. -/
def srcIds (adj : IVec S2x625000 32) : IVec S625000 32 :=
  shapeCast S625000 (extractStridedSlice S1x625000 ![0, 0] adj slices_S2x625000_S1x625000_0_0) shapeCasts_S1x625000_S625000
def tgtIds (adj : IVec S2x625000 32) : IVec S625000 32 :=
  shapeCast S625000 (extractStridedSlice S1x625000 ![1, 0] adj slices_S2x625000_S1x625000_1_0) shapeCasts_S1x625000_S625000

/-- Every id clipped into `[0, 49999]`. -/
def clipIds (a : IVec S625000 32) : IVec S625000 32 :=
  minsi (broadcastInDim S625000 ![] bcast_S_S625000 (constantI S_ 32 49999#32))
    (maxsi (broadcastInDim S625000 ![] bcast_S_S625000 (constantI S_ 32 0#32)) a)

/-- A negative id wrapped around by adding the table's length. -/
def wrapIds (ids : IVec S625000 32) : IVec S625000 32 :=
  select (cmpi .slt ids (broadcastInDim S625000 ![] bcast_S_S625000 (constantI S_ 32 0#32)))
    (addi ids (broadcastInDim S625000 ![] bcast_S_S625000 (constantI S_ 32 50000#32))) ids

/-- The wrapped ids as a column of start indices. -/
def startCol (ids : IVec S625000 32) : IVec S625000x1 32 :=
  broadcastInDim S625000x1 ![0] bcast_S625000_S625000x1_0 (wrapIds ids)

/-- Per edge: is its start index inside `[0, 49999]`? -/
def inBounds (ids : IVec S625000 32) : IVec S625000x1 1 :=
  andi (cmpi .sge (startCol ids) (broadcastInDim S625000x1 ![] bcast_S_S625000x1 (constantI S_ 32 0#32)))
    (cmpi .sle (startCol ids) (broadcastInDim S625000x1 ![0, 1] bcast_S1x1_S625000x1_0_1
      (broadcastInDim S1x1 ![1] bcast_S1_S1x1_1 (constantI S1 32 49999#32))))

/-- The same reduced along the (one-entry) index-vector axis. -/
def allInBounds (ids : IVec S625000 32) : IVec S625000 1 :=
  Host.reduce IntOp.andi (inBounds ids) (constantI S_ 1 1#1) reducesTo_S625000x1_S625000_d1 h_S_

/-- The table's rows at the ids; a row whose id is out of bounds is the fill value instead. -/
def takeRows (T : FVec Ideal S50000x16 .f32) (ids : IVec S625000 32) : FVec Ideal S625000x16 .f32 :=
  select (broadcastInDim S625000x16 ![0] bcast_S625000_S625000x16_0 (allInBounds ids))
    (Host.gather gather_S50000x16_S625000x1_S625000x16_1_0_n_n_0_1_116 T (startCol ids))
    (broadcastInDim S625000x16 ![] bcast_S_S625000x16 (constant S_ .f32 0x7FC00000#32))

/-! ## Read at an index -/

theorem srcIds_apply (adj : IVec S2x625000 32) (e : Fin 625000) : srcIds adj (ix1 e) = adj (ix2 (0 : Fin 2) e) := by
  unfold srcIds
  refine (shapeCast_apply _ shapeCasts_S1x625000_S625000 (ix1 e) (ix2 (0 : Fin 1) e)
    (by rewrite [Shape.rowMajor_val_two, Shape.rowMajor_val_one]; show 0 * 625000 + e.val = e.val; omega)).trans ?_
  refine (extractStridedSlice_apply ![0, 0] adj slices_S2x625000_S1x625000_0_0 (ix2 (0 : Fin 1) e) (ix2 (0 : Fin 2) e)
    (fun a => match a with
      | ⟨0, _⟩ => by show (0 : Nat) = 0 + 0; rfl
      | ⟨1, _⟩ => by show e.val = 0 + e.val; omega))

theorem tgtIds_apply (adj : IVec S2x625000 32) (e : Fin 625000) : tgtIds adj (ix1 e) = adj (ix2 (1 : Fin 2) e) := by
  unfold tgtIds
  refine (shapeCast_apply _ shapeCasts_S1x625000_S625000 (ix1 e) (ix2 (0 : Fin 1) e)
    (by rewrite [Shape.rowMajor_val_two, Shape.rowMajor_val_one]; show 0 * 625000 + e.val = e.val; omega)).trans ?_
  refine (extractStridedSlice_apply ![1, 0] adj slices_S2x625000_S1x625000_1_0 (ix2 (0 : Fin 1) e) (ix2 (1 : Fin 2) e)
    (fun a => match a with
      | ⟨0, _⟩ => by show (1 : Nat) = 1 + 0; rfl
      | ⟨1, _⟩ => by show e.val = 0 + e.val; omega))

/-- A clipped id is the scalar clip of the id. -/
theorem clipIds_apply (a : IVec S625000 32) (i : S625000.Idx) : clipIds a i = clip (a i) := rfl

/-- A clipped id is not wrapped: it is already non-negative. -/
theorem wrapIds_clip (a : IVec S625000 32) (i : S625000.Idx) : wrapIds (clipIds a) i = clip (a i) := by
  show Scalar.select (IntOp.cmpi .slt (clipIds a i) 0#32) _ (clipIds a i) = _
  rw [clipIds_apply]
  exact keep_of_nonneg _ _ (clip_nonneg _)

/-- The start index of edge `e`. -/
theorem startCol_apply (ids : IVec S625000 32) (i : S625000x1.Idx) :
    startCol ids i = wrapIds ids (ix1 (⟨(i 0).val, idx2_lt0 i⟩ : Fin 625000)) := by
  unfold startCol
  exact broadcastInDim_apply _ bcast_S625000_S625000x1_0 (wrapIds ids) i (ix1 (⟨(i 0).val, idx2_lt0 i⟩ : Fin 625000))
    (fun a => match a with
      | ⟨0, _⟩ => by show (i 0).val = if (625000 : Nat) = 1 then 0 else (i 0).val; rw [if_neg (by decide)])

/-- After the clip every start index is in bounds. -/
theorem inBounds_clip (a : IVec S625000 32) (i : S625000x1.Idx) : inBounds (clipIds a) i = 1#1 := by
  show IntOp.andi (IntOp.cmpi .sge (startCol (clipIds a) i) 0#32) (IntOp.cmpi .sle (startCol (clipIds a) i) 49999#32) = 1#1
  rw [startCol_apply, wrapIds_clip]
  refine IntOp.andi_eq_one.2 ⟨IntOp.cmpi_sge.2 ?_, IntOp.cmpi_sle.2 ?_⟩
  · have h0 : (0#32 : BitVec 32).toInt = 0 := by decide
    have := clip_nonneg (a (ix1 (⟨(i 0).val, idx2_lt0 i⟩ : Fin 625000)))
    omega
  · have h1 : (49999#32 : BitVec 32).toInt = 49999 := by decide
    have := clip_le (a (ix1 (⟨(i 0).val, idx2_lt0 i⟩ : Fin 625000)))
    omega

theorem allInBounds_clip (a : IVec S625000 32) (i : S625000.Idx) : allInBounds (clipIds a) i = 1#1 :=
  reduce_andi_of_all_one _ _ _ _ _ (inBounds_clip a) (fun _ => rfl)

/-- WHAT IS PICKED: after the clip, row `e` of the picked array is the table's row `node id`, for any id. -/
theorem takeRows_clip_apply (T : FVec Ideal S50000x16 .f32) (a : IVec S625000 32) (e : Fin 625000) (q : Fin 16) :
    takeRows T (clipIds a) (ix2 e q) = T (ix2 (node (a (ix1 e))) q) := by
  unfold takeRows
  show Scalar.select (broadcastInDim S625000x16 ![0] bcast_S625000_S625000x16_0 (allInBounds (clipIds a)) (ix2 e q))
    (Host.gather gather_S50000x16_S625000x1_S625000x16_1_0_n_n_0_1_116 T (startCol (clipIds a)) (ix2 e q)) _ = _
  have hm : broadcastInDim S625000x16 ![0] bcast_S625000_S625000x16_0 (allInBounds (clipIds a)) (ix2 e q) = 1#1 :=
    (broadcastInDim_apply _ bcast_S625000_S625000x16_0 (allInBounds (clipIds a)) (ix2 e q) (ix1 e)
      (fun b => match b with
        | ⟨0, _⟩ => by show e.val = if (625000 : Nat) = 1 then 0 else e.val; rw [if_neg (by decide)])).trans
      (allInBounds_clip a (ix1 e))
  rw [hm, select_one, gather_rows_apply (by decide) gather_S50000x16_S625000x1_S625000x16_1_0_n_n_0_1_116 rfl rfl rfl rfl rfl T (startCol (clipIds a)) e q,
    startCol_apply, wrapIds_clip]
  exact congrArg (fun n => T (ix2 n q)) (node_clip _)

/-- The sources' picked rows, as one array: `picked` of the table at row 0 of the edge list. -/
theorem takeRows_src (T : FVec Ideal S50000x16 .f32) (adj : IVec S2x625000 32) :
    takeRows T (clipIds (srcIds adj)) = picked T adj 0 := by
  funext i
  refine (congrArg (takeRows T (clipIds (srcIds adj))) (eq_ix2 i)).trans ?_
  refine (takeRows_clip_apply T (srcIds adj) (⟨(i 0).val, idx2_lt0 i⟩ : Fin 625000) (⟨(i 1).val, idx2_lt1 i⟩ : Fin 16)).trans ?_
  rw [srcIds_apply]
  rfl

/-- The targets' picked rows: `picked` at row 1 of the edge list. -/
theorem takeRows_tgt (T : FVec Ideal S50000x16 .f32) (adj : IVec S2x625000 32) :
    takeRows T (clipIds (tgtIds adj)) = picked T adj 1 := by
  funext i
  refine (congrArg (takeRows T (clipIds (tgtIds adj))) (eq_ix2 i)).trans ?_
  refine (takeRows_clip_apply T (tgtIds adj) (⟨(i 0).val, idx2_lt0 i⟩ : Fin 625000) (⟨(i 1).val, idx2_lt1 i⟩ : Fin 16)).trans ?_
  rw [tgtIds_apply]
  rfl

end Cert.KernelIdeal.TakeRows

end
-- ==== Proof.Projection.lean ====
/-
  The first kernel region as one whole-array function. Its grid has 10 points; point `t` stages rows
  `5000·t … 5000·t + 4999` of the node features and the whole `[128, 16]` matrix, multiplies them into a zero
  accumulator, and writes back the same rows of the node table. On the extended reals a matrix product into zero is
  the plain sum over the contracted axis, so the body's block is `table` of its blocks; `table` works node by node,
  so point `t` writes block `t` of `table` of the whole arrays, the 10 blocks tile the table, and it ends holding that.
-/
import proofs.«405968_j67319317397857_3_alg».proof.Proof.Gen.KernelIdeal.Frame
import proofs.«405968_j67319317397857_3_alg».proof.Proof.EdgeSpec
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.SL.Sem
open Idealize.ShloMosaic.ValueIdx Cert.EdgeLift
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The body on one block -/

/-- The product's left operand is read at (the output's row, the contraction index) … -/
theorem lhs_row (i : S5000x16.Idx) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_col (i : S5000x16.Idx) (q : dot_S5000x128_S128x16_S5000x16_1_0_0_1_n_n.contr.Idx) : (dot_S5000x128_S128x16_S5000x16_1_0_0_1_n_n.lhsIdx i q 1).val = (q ⟨0, by decide⟩).val :=
  dot_S5000x128_S128x16_S5000x16_1_0_0_1_n_n.lhsIdx_val_of_single rfl i q
/-- … and its right operand at (the contraction index, the output's column). -/
theorem rhs_row (i : S5000x16.Idx) (q : dot_S5000x128_S128x16_S5000x16_1_0_0_1_n_n.contr.Idx) : (dot_S5000x128_S128x16_S5000x16_1_0_0_1_n_n.rhsIdx i q 0).val = (q ⟨0, by decide⟩).val :=
  dot_S5000x128_S128x16_S5000x16_1_0_0_1_n_n.rhsIdx_val_of_single rfl i q
theorem rhs_col (i : S5000x16.Idx) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The body's stored value is `table` of its two loaded blocks: a matrix product into the zero accumulator is, entry
    by entry, the sum over the 128 contracted columns. -/
theorem payload_eq_table (v0 : Vec Ideal S5000x128 .f32) (v1 : Vec Ideal S128x16 .f32) :
    k0_pay1 v0 v1 = table (R := 5000) v0 v1 := by
  funext i
  unfold k0_pay1 table
  dsimp only
  rw [shapeCast_self]
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx i ((contrEquiv1 dot_S5000x128_S128x16_S5000x16_1_0_0_1_n_n 128 rfl rfl).symm k)
      = ix2 (⟨(i 0).val, idx2_lt0 i⟩ : Fin 5000) k := funext fun a => Fin.ext (by
    match a with
    | ⟨0, _⟩ => exact lhs_row _ _
    | ⟨1, _⟩ => exact (lhs_col _ _).trans hk)
  have er : dot_S5000x128_S128x16_S5000x16_1_0_0_1_n_n.rhsIdx i ((contrEquiv1 dot_S5000x128_S128x16_S5000x16_1_0_0_1_n_n 128 rfl rfl).symm k)
      = ix2 k (⟨(i 1).val, idx2_lt1 i⟩ : Fin 16) := funext fun a => Fin.ext (by
    match a with
    | ⟨0, _⟩ => exact (rhs_row _ _).trans hk
    | ⟨1, _⟩ => exact rhs_col _ _)
  rw [el, er]

/-- What the body leaves in the output block is `table` of the two input blocks. -/
theorem out_eq_table (x0 : Vec Ideal S5000x128 .f32) (x1 : Vec Ideal S128x16 .f32) :
    out0_2 x0 x1 = table (R := 5000) x0 x1 := by
  unfold out0_2
  rw [View.canon_unit_zero zero_offsets, View.ld_unit_zero (S := S5000x128) zero_offsets,
    View.ld_unit_zero (S := S128x16) zero_offsets, payload_eq_table]

/-! ## From blocks to the array -/

/-- The grid has 10 points. -/
theorem point_lt (t : Fin cfg0.N) : t.val < 10 := lt_of_lt_of_eq t.isLt N_0

/-- The features' and the table's block index at point `t` is `(t, 0)`; the matrix's is `(0, 0)` at every point
    (decided over the 10 points). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s block is row `5000·t + r` of the array. -/
abbrev nodeOf (t : Fin cfg0.N) (r : Nat) (hr : r < 5000) : Fin 50000 := ⟨t.val * 5000 + r, by have := point_lt t; omega⟩

/-- The node features' block at point `t`, read off the array. -/
theorem block_feat (c : Dev nD) (t : Fin cfg0.N) (y : S5000x128.Idx) :
    iblk0 V c 0 t y = V c main_arg0 (ix2 (nodeOf t (y 0).val (idx2_lt0 y)) (⟨(y 1).val, idx2_lt1 y⟩ : Fin 128)) := by
  obtain ⟨e0, e1, -⟩ := index_facts t
  show V c main_arg0 (((cfg0.win 0).blk t).view.emb y) = V c main_arg0 _
  congr 1
  funext a
  apply Fin.ext
  match a with
  | ⟨0, _⟩ => show win0_0.index t (0 : Fin 2) * 5000 + 1 * (y 0).val = t.val * 5000 + (y 0).val; rw [e0]; omega
  | ⟨1, _⟩ => show win0_0.index t (1 : Fin 2) * 128 + 1 * (y 1).val = (y 1).val; rw [e1]; omega

/-- The matrix's block at every point is the whole matrix. -/
theorem block_mat (c : Dev nD) (t : Fin cfg0.N) : iblk0 V c 1 t = V c main_v2 := by
  obtain ⟨-, -, e0, e1, -⟩ := index_facts t
  funext y
  show V c main_v2 (((cfg0.win 1).blk t).view.emb y) = V c main_v2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- WHAT POINT `t` WRITES BACK is block `t` of `table` of the two arrays as the region finds them. -/
theorem flushed_eq (c : Dev nD) (t : Fin cfg0.N) :
    (dat0 V c).flushed 2 t
      = ((cfg0.win 2).blk t).view.read (Elt Ideal) (table (R := 50000) (V c main_arg0) (V c main_v2)) := by
  show (cfg0.win 2).cut (grid0.coords t) ((dat0 V c).after 2 t) = _
  rw [after0_2, out_eq_table, block_mat]
  funext j
  show table (R := 5000) (iblk0 V c 0 t) (V c main_v2) j
    = table (R := 50000) (V c main_arg0) (V c main_v2) (((cfg0.win 2).blk t).view.emb j)
  rw [show iblk0 V c 0 t = _ from funext (block_feat V c t)]
  have hp := point_lt t
  refine (table_block (R := 50000) (R' := 5000) (V c main_arg0) (V c main_v2) (t.val * 5000) (by omega) j).trans ?_
  congr 1
  obtain ⟨-, -, -, -, e0, e1⟩ := index_facts t
  funext a
  apply Fin.ext
  match a with
  | ⟨0, _⟩ => show t.val * 5000 + (j 0).val = win0_2.index t (0 : Fin 2) * 5000 + 1 * (j 0).val; rw [e0]; omega
  | ⟨1, _⟩ => show (j 1).val = win0_2.index t (1 : Fin 2) * 16 + 1 * (j 1).val; rw [e1]; omega

/-- An index of the table is in point `t`'s block iff each coordinate is in the block's range on its axis. -/
theorem mem_block (t : Fin cfg0.N) (i : S50000x16.Idx) :
    i ∈ ((cfg0.win 2).blk t).view.set
      ↔ ∀ a : Fin 2, win0_2.index t a * S5000x16.size a ≤ (i a).val ∧ (i a).val < win0_2.index t a * S5000x16.size a + S5000x16.size a := by
  show i ∈ ((View.whole main_v3).slice (win0_2.rect t)).set ↔ _
  rw [View.set_slice_whole, Rect.mem_set_unit]
  exact Iff.rfl

/-- The 10 blocks tile the table: row `r` lies in the block of point `r / 5000`. -/
theorem covered (i : S50000x16.Idx) : ∃ t : Fin cfg0.N, (cfg0.win 2).flush t = true ∧ i ∈ ((cfg0.win 2).blk t).view.set := by
  have hi0 : (i 0).val < 50000 := (i 0).isLt
  have hi1 : (i 1).val < 16 := (i 1).isLt
  let t : Fin cfg0.N := ⟨(i 0).val / 5000, lt_of_lt_of_eq (by omega : (i 0).val / 5000 < 10) N_0.symm⟩
  obtain ⟨-, -, -, -, e0, e1⟩ := index_facts t
  have ht : t.val = (i 0).val / 5000 := rfl
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 16 ≤ (i 1).val ∧ (i 1).val < win0_2.index t (1 : Fin 2) * 16 + 16
    rw [e1]; omega

/-- THE NODE TABLE after the region: `table` of the node features and the matrix as the region finds them. -/
theorem final (c : Dev nD) :
    (dat0 V c).arrAt 2 cfg0.N = table (R := 50000) (V c main_arg0) (V c main_v2) :=
  (dat0 V c).arrAt_eq_of_cover 2 _ (fun t _ => flushed_eq V c t) covered

end Cert.KernelIdeal.Projection

end
-- ==== Proof.EdgeRegion.lean ====
/-
  The second kernel region as one whole-array function. Its grid has 125 points; point `t` stages rows
  `5000·t … 5000·t + 4999` of the two picked tables and of the edge features, and writes back the same rows of the
  output. The body adds the first table's columns 0–7 to the second's columns 8–15, clamps at zero, and sets the 64
  edge features beside them: `combine` on a block of 5000 edges. Since `combine` works edge by edge, point `t` writes
  block `t` of `combine` of the whole arrays, the 125 blocks tile the output, and the output array ends holding it.
-/
import proofs.«405968_j67319317397857_3_alg».proof.Proof.Gen.KernelIdeal.Frame
import proofs.«405968_j67319317397857_3_alg».proof.Proof.EdgeSpec
import Idealize.ShloMosaic.Lib.Pipeline.Value
import Idealize.ShloMosaic.Lib.ValueIdx
import Idealize.ShloMosaic.PureOps.Ideal.Laws

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.ValueIdx Cert.EdgeLift
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The body on one block -/

/-- The body's stored value, entry by entry: below column 8 the clamped sum of the two loaded pieces, from column 8 on
    the third piece. -/
theorem payload_apply (v0 v2 : Vec Ideal S5000x8 .f32) (v7 : Vec Ideal S5000x64 .f32) (y : S5000x72.Idx) :
    k1_pay1 v0 v2 v7 y
      = if h : (y 1).val < 8 then
          max (v0 (ix2 (⟨(y 0).val, idx2_lt0 y⟩ : Fin 5000) (⟨(y 1).val, h⟩ : Fin 8))
            + v2 (ix2 (⟨(y 0).val, idx2_lt0 y⟩ : Fin 5000) (⟨(y 1).val, h⟩ : Fin 8))) 0
        else v7 (ix2 (⟨(y 0).val, idx2_lt0 y⟩ : Fin 5000) (⟨(y 1).val - 8, by have := idx2_lt1 y; omega⟩ : Fin 64)) := by
  unfold k1_pay1
  dsimp only
  by_cases h : (y 1).val < 8
  · rw [dif_pos h]
    refine (concatenate_pair_apply_left (t := S5000x72) (s₁ := S5000x8) (s₂ := S5000x64) (1 : Fin 2) _ _
      concatenates_S5000x8_S5000x64_S5000x72_d1 y (rfl : S5000x8.rank = S5000x72.rank)
      (ix2 (⟨(y 0).val, idx2_lt0 y⟩ : Fin 5000) (⟨(y 1).val, h⟩ : Fin 8)) ?_).trans ?_
    · intro b
      match b with
      | ⟨0, _⟩ => rfl
      | ⟨1, _⟩ => rfl
    · simp only [maximumf, addf, broadcast, shapeCast_self, Ideal.maximumf_def, Ideal.addf_def, Ideal.ofBits_def,
        Ideal.ofBits_zero_f32]
  · rw [dif_neg h]
    refine concatenate_pair_apply_right (t := S5000x72) (s₁ := S5000x8) (s₂ := S5000x64) (1 : Fin 2) _ _
      concatenates_S5000x8_S5000x64_S5000x72_d1 y (rfl : S5000x8.rank = S5000x72.rank) (rfl : S5000x64.rank = S5000x72.rank)
      (ix2 (⟨(y 0).val, idx2_lt0 y⟩ : Fin 5000) (⟨(y 1).val - 8, by have := idx2_lt1 y; omega⟩ : Fin 64)) ?_ ?_
    · intro b hb
      match b with
      | ⟨0, _⟩ => rfl
      | ⟨1, _⟩ => exact absurd rfl hb
    · show (y 1).val - 8 + 8 = (y 1).val
      omega

/-- What the body leaves in the output block is `combine` of the three input blocks. -/
theorem out_eq_combine (x0 x1 : Vec Ideal S5000x16 .f32) (x2 : Vec Ideal S5000x64 .f32) :
    out1_3 x0 x1 x2 = combine (R := 5000) x0 x1 x2 := by
  funext y
  unfold out1_3
  rw [View.canon_unit_zero zero_offsets, payload_apply]
  unfold combine
  by_cases h : (y 1).val < 8
  · rw [dif_pos h, dif_pos h]
    congr 2
    · show x0 (r1_0.emb _) = x0 _
      congr 1
      funext a
      apply Fin.ext
      match a with
      | ⟨0, _⟩ => show 0 + 1 * (y 0).val = (y 0).val; omega
      | ⟨1, _⟩ => show 0 + 1 * (y 1).val = (y 1).val; omega
    · show x1 (r1_1.emb _) = x1 _
      congr 1
      funext a
      apply Fin.ext
      match a with
      | ⟨0, _⟩ => show 0 + 1 * (y 0).val = (y 0).val; omega
      | ⟨1, _⟩ => show 8 + 1 * (y 1).val = 8 + (y 1).val; omega
  · rw [dif_neg h, dif_neg h, View.ld_unit_zero (S := S5000x64) zero_offsets]

/-! ## From blocks to the array -/

/-- The grid has 125 points. -/
theorem point_lt (t : Fin cfg1.N) : t.val < 125 := lt_of_lt_of_eq t.isLt N_1

/-- Every window's block index at point `t` is `(t, 0)`: all four windows move down their arrays together, 5000 rows
    a point (decided over the 125 points). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `r` of point `t`'s block is row `5000·t + r` of the array. -/
abbrev edgeOf (t : Fin cfg1.N) (r : Nat) (hr : r < 5000) : Fin 625000 := ⟨t.val * 5000 + r, by have := point_lt t; omega⟩

/-- The first picked table's block at point `t`, read off the array. -/
theorem block_src (c : Dev nD) (t : Fin cfg1.N) (y : S5000x16.Idx) :
    iblk1 V c 0 t y = V c main_v10 (ix2 (edgeOf t (y 0).val (idx2_lt0 y)) (⟨(y 1).val, idx2_lt1 y⟩ : Fin 16)) := by
  obtain ⟨e0, e1, -⟩ := index_facts t
  show V c main_v10 (((cfg1.win 0).blk t).view.emb y) = V c main_v10 _
  congr 1
  funext a
  apply Fin.ext
  match a with
  | ⟨0, _⟩ => show win1_0.index t (0 : Fin 2) * 5000 + 1 * (y 0).val = t.val * 5000 + (y 0).val; rw [e0]; omega
  | ⟨1, _⟩ => show win1_0.index t (1 : Fin 2) * 16 + 1 * (y 1).val = (y 1).val; rw [e1]; omega

/-- The second picked table's block at point `t`. -/
theorem block_tgt (c : Dev nD) (t : Fin cfg1.N) (y : S5000x16.Idx) :
    iblk1 V c 1 t y = V c main_v11 (ix2 (edgeOf t (y 0).val (idx2_lt0 y)) (⟨(y 1).val, idx2_lt1 y⟩ : Fin 16)) := by
  obtain ⟨-, -, e0, e1, -⟩ := index_facts t
  show V c main_v11 (((cfg1.win 1).blk t).view.emb y) = V c main_v11 _
  congr 1
  funext a
  apply Fin.ext
  match a with
  | ⟨0, _⟩ => show win1_1.index t (0 : Fin 2) * 5000 + 1 * (y 0).val = t.val * 5000 + (y 0).val; rw [e0]; omega
  | ⟨1, _⟩ => show win1_1.index t (1 : Fin 2) * 16 + 1 * (y 1).val = (y 1).val; rw [e1]; omega

/-- The edge features' block at point `t`. -/
theorem block_feat (c : Dev nD) (t : Fin cfg1.N) (y : S5000x64.Idx) :
    iblk1 V c 2 t y = V c main_arg2 (ix2 (edgeOf t (y 0).val (idx2_lt0 y)) (⟨(y 1).val, idx2_lt1 y⟩ : Fin 64)) := by
  obtain ⟨-, -, -, -, e0, e1, -⟩ := index_facts t
  show V c main_arg2 (((cfg1.win 2).blk t).view.emb y) = V c main_arg2 _
  congr 1
  funext a
  apply Fin.ext
  match a with
  | ⟨0, _⟩ => show win1_2.index t (0 : Fin 2) * 5000 + 1 * (y 0).val = t.val * 5000 + (y 0).val; rw [e0]; omega
  | ⟨1, _⟩ => show win1_2.index t (1 : Fin 2) * 64 + 1 * (y 1).val = (y 1).val; rw [e1]; omega

/-- WHAT POINT `t` WRITES BACK is block `t` of `combine` of the three arrays as the region finds them. -/
theorem flushed_eq (c : Dev nD) (t : Fin cfg1.N) :
    (dat1 V c).flushed 3 t
      = ((cfg1.win 3).blk t).view.read (Elt Ideal) (combine (R := 625000) (V c main_v10) (V c main_v11) (V c main_arg2)) := by
  show (cfg1.win 3).cut (grid1.coords t) ((dat1 V c).after 3 t) = _
  rw [after1_3, out_eq_combine]
  funext j
  show combine (R := 5000) (iblk1 V c 0 t) (iblk1 V c 1 t) (iblk1 V c 2 t) j
    = combine (R := 625000) (V c main_v10) (V c main_v11) (V c main_arg2) (((cfg1.win 3).blk t).view.emb j)
  rw [show iblk1 V c 0 t = _ from funext (block_src V c t), show iblk1 V c 1 t = _ from funext (block_tgt V c t),
    show iblk1 V c 2 t = _ from funext (block_feat V c t)]
  have hp := point_lt t
  refine (combine_block (R := 625000) (R' := 5000) (V c main_v10) (V c main_v11) (V c main_arg2) (t.val * 5000) (by omega) j).trans ?_
  congr 1
  obtain ⟨-, -, -, -, -, -, e0, e1⟩ := index_facts t
  funext a
  apply Fin.ext
  match a with
  | ⟨0, _⟩ => show t.val * 5000 + (j 0).val = win1_3.index t (0 : Fin 2) * 5000 + 1 * (j 0).val; rw [e0]; omega
  | ⟨1, _⟩ => show (j 1).val = win1_3.index t (1 : Fin 2) * 72 + 1 * (j 1).val; rw [e1]; omega

/-- An index of the output array is in point `t`'s block iff each coordinate is in the block's range on its axis. -/
theorem mem_block (t : Fin cfg1.N) (i : S625000x72.Idx) :
    i ∈ ((cfg1.win 3).blk t).view.set
      ↔ ∀ a : Fin 2, win1_3.index t a * S5000x72.size a ≤ (i a).val ∧ (i a).val < win1_3.index t a * S5000x72.size a + S5000x72.size a := by
  show i ∈ ((View.whole main_v12).slice (win1_3.rect t)).set ↔ _
  rw [View.set_slice_whole, Rect.mem_set_unit]
  exact Iff.rfl

/-- The 125 blocks tile the output: row `r` lies in the block of point `r / 5000`. -/
theorem covered (i : S625000x72.Idx) : ∃ t : Fin cfg1.N, (cfg1.win 3).flush t = true ∧ i ∈ ((cfg1.win 3).blk t).view.set := by
  have hi0 : (i 0).val < 625000 := (i 0).isLt
  have hi1 : (i 1).val < 72 := (i 1).isLt
  let t : Fin cfg1.N := ⟨(i 0).val / 5000, lt_of_lt_of_eq (by omega : (i 0).val / 5000 < 125) N_1.symm⟩
  obtain ⟨-, -, -, -, -, -, e0, e1⟩ := index_facts t
  have ht : t.val = (i 0).val / 5000 := rfl
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 72 ≤ (i 1).val ∧ (i 1).val < win1_3.index t (1 : Fin 2) * 72 + 72
    rw [e1]; omega

/-- THE OUTPUT ARRAY after the region: `combine` of the two picked tables and the edge features as the region finds
    them. -/
theorem final (c : Dev nD) :
    (dat1 V c).arrAt 3 cfg1.N = combine (R := 625000) (V c main_v10) (V c main_v11) (V c main_arg2) :=
  (dat1 V c).arrAt_eq_of_cover 3 _ (fun t _ => flushed_eq V c t) covered

end Cert.KernelIdeal.EdgeRegion

end
-- ==== Proof.KernelLift.lean ====
/-
  The kernel program's result is `lift`, for every input.
  Walking the program: the host first lays the two halves of `w` side by side; region 0 turns the node features and that
  matrix into the node table (`table`); the host clips each row of the edge list and picks the table's rows at the
  clipped ids (`takeRows`), which is `picked` whatever the ids are; region 1 combines the two picked arrays with the
  edge features (`combine`). Combining rows picked from the table is `lift` (`combine_table`).
-/
import proofs.«405968_j67319317397857_3_alg».proof.Proof.Gen.KernelIdeal.Frame
import proofs.«405968_j67319317397857_3_alg».proof.Proof.EdgeSpec
import proofs.«405968_j67319317397857_3_alg».proof.Proof.TakeRows
import proofs.«405968_j67319317397857_3_alg».proof.Proof.Projection
import proofs.«405968_j67319317397857_3_alg».proof.Proof.EdgeRegion
import Idealize.ShloMosaic.Lib.StableHlo.Run
import Idealize.ShloMosaic.Lib.Pipeline.Value

set_option maxRecDepth 16384

noncomputable section

namespace Cert.KernelIdeal.KernelLift

open Cert.KernelIdeal Cert.KernelIdeal.Gen Idealize.ShloMosaic Idealize.ShloMosaic.TcCoe Idealize.SL.Sem
open Idealize.ShloMosaic.StableHlo Idealize.ShloMosaic.ValueIdx Cert.EdgeLift Cert.KernelIdeal.TakeRows

/-! ## The side-by-side matrix -/

/-- Two 128-row slices of `w` joined along the columns is `sideBySide w`. -/
theorem concat_halves (w : FVec Ideal S256x8 .f32) :
    concatenate S128x16 1 [⟨S128x8, extractStridedSlice S128x8 ![0, 0] w slices_S256x8_S128x8_0_0⟩,
      ⟨S128x8, extractStridedSlice S128x8 ![128, 0] w slices_S256x8_S128x8_128_0⟩] concatenates_S128x8_S128x8_S128x16_d1
      = sideBySide w := by
  funext i
  unfold sideBySide
  by_cases h : (i 1).val < 8
  · rw [dif_pos h]
    refine (concatenate_pair_apply_left (t := S128x16) (s₁ := S128x8) (s₂ := S128x8) (1 : Fin 2) _ _
      concatenates_S128x8_S128x8_S128x16_d1 i (rfl : S128x8.rank = S128x16.rank)
      (ix2 (⟨(i 0).val, idx2_lt0 i⟩ : Fin 128) (⟨(i 1).val, h⟩ : Fin 8)) ?_).trans ?_
    · intro b
      match b with
      | ⟨0, _⟩ => rfl
      | ⟨1, _⟩ => rfl
    · show w _ = w _
      congr 1
      funext a
      apply Fin.ext
      match a with
      | ⟨0, _⟩ => show 0 + (i 0).val = (i 0).val; omega
      | ⟨1, _⟩ => show 0 + (i 1).val = (i 1).val; omega
  · rw [dif_neg h]
    refine (concatenate_pair_apply_right (t := S128x16) (s₁ := S128x8) (s₂ := S128x8) (1 : Fin 2) _ _
      concatenates_S128x8_S128x8_S128x16_d1 i (rfl : S128x8.rank = S128x16.rank) (rfl : S128x8.rank = S128x16.rank)
      (ix2 (⟨(i 0).val, idx2_lt0 i⟩ : Fin 128) (⟨(i 1).val - 8, by have := idx2_lt1 i; omega⟩ : Fin 8)) ?_ ?_).trans ?_
    · intro b hb
      match b with
      | ⟨0, _⟩ => rfl
      | ⟨1, _⟩ => exact absurd rfl hb
    · show (i 1).val - 8 + 8 = (i 1).val
      omega
    · show w _ = w _
      congr 1
      funext a
      apply Fin.ext
      match a with
      | ⟨0, _⟩ => show 128 + (i 0).val = 128 + (i 0).val; rfl
      | ⟨1, _⟩ => show 0 + ((i 1).val - 8) = (i 1).val - 8; omega

variable (m : (ℓ : Loc nD τ sig) → Buf (Elt Ideal) ℓ) (ρ : Dev nD → PrngReg)

/-! ## The arrays as region 0 finds them, and the node table it leaves -/

theorem entry0_feat (c : Dev nD) : V1 m ρ c main_arg0 = m ((c : Thread nD τ).loc main_arg0) := by
  show StableHlo.after hostOps0 (W0 m ρ c) (Proc.devRef .tc main_arg0) = _
  simp only [hostOps0]
  after_results_simp <;> rfl

theorem entry0_mat (c : Dev nD) : V1 m ρ c main_v2 = sideBySide (m ((c : Thread nD τ).loc main_arg3)) := by
  show StableHlo.after hostOps0 (W0 m ρ c) (Proc.devRef .tc main_v2) = _
  simp only [hostOps0]
  after_results_simp
  exact concat_halves _

/-- After region 0 the table's buffer holds `table` of the node features and the side-by-side matrix. -/
theorem table_after0 (c : Dev nD) :
    W2 m ρ c (Proc.devRef .tc main_v3)
      = table (R := 50000) (m ((c : Thread nD τ).loc main_arg0)) (sideBySide (m ((c : Thread nD τ).loc main_arg3))) := by
  refine (W2_arr m ρ c 2).trans ((Projection.final (V1 m ρ) c).trans ?_)
  rw [entry0_feat, entry0_mat]

/-- Region 0 and the host operations before it leave the edge list as launched. -/
theorem ids_after0 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  simp only [hostOps0]
  after_results_simp <;> rfl

/-! ## The arrays as region 1 finds them -/

theorem picked_src (c : Dev nD) :
    V8 m ρ c main_v10 = takeRows (W2 m ρ c (Proc.devRef .tc main_v3)) (clipIds (srcIds (W2 m ρ c (Proc.devRef .tc main_arg1)))) := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v10) = _
  generalize W2 m ρ c = U
  simp only [hostOps1_5, hostOps1_4, hostOps1_3, hostOps1_2, hostOps1_1, hostOps1]
  after_results_simp
  simp only [TRef.ofBuf, TRef.toBuf, cast_eq]
  rfl

theorem picked_tgt (c : Dev nD) :
    V8 m ρ c main_v11 = takeRows (W2 m ρ c (Proc.devRef .tc main_v3)) (clipIds (tgtIds (W2 m ρ c (Proc.devRef .tc main_arg1)))) := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v11) = _
  generalize W2 m ρ c = U
  simp only [hostOps1_5, hostOps1_4, hostOps1_3, hostOps1_2, hostOps1_1, hostOps1]
  after_results_simp
  simp only [TRef.ofBuf, TRef.toBuf, cast_eq]
  rfl

/-- The edge features reach region 1 as launched: nothing before it writes them. -/
theorem feat_entry1 (c : Dev nD) : V8 m ρ c main_arg2 = m ((c : Thread nD τ).loc main_arg2) :=
  ((W9_arr m ρ c 2).trans (((dat1 (V8 m ρ) c).arrAt_in 2 rfl _).trans (A_eq1 (V8 m ρ) c 2))).symm.trans (W9_main_arg2 m ρ c)

/-! ## The result -/

/-- THE KERNEL'S RESULT IS `lift` of the argument arrays, whatever they hold. -/
theorem result_eq_lift (c : Dev nD) :
    W9 m ρ c (Proc.devRef .tc main_v12)
      = lift (m ((c : Thread nD τ).loc main_arg0)) (m ((c : Thread nD τ).loc main_arg1))
          (m ((c : Thread nD τ).loc main_arg2)) (m ((c : Thread nD τ).loc main_arg3)) := by
  refine (W9_arr m ρ c 3).trans ((EdgeRegion.final (V8 m ρ) c).trans ?_)
  rw [picked_src, picked_tgt, feat_entry1, table_after0, ids_after0, takeRows_src, takeRows_tgt]
  exact combine_table _ _ _ _

end Cert.KernelIdeal.KernelLift

end
-- ==== Proof.RefLift.lean ====
/-
  The reference program's result is `lift`, when every node id is non-negative.
  The reference wraps a negative id by adding 50000 (NumPy's convention) before it gathers feature rows; a
  non-negative id passes through unchanged, and the gather itself clamps it into the table: the row read is `node id`.
  Each of the two products of gathered rows with a 128-row block of `w` is then, entry by entry, a `halfScore`; their
  sum clamped at zero fills columns 0–7 and the edge features columns 8–71.
-/
import proofs.«405968_j67319317397857_3_alg».proof.Proof.Gen.ReferenceIdeal.Read
import proofs.«405968_j67319317397857_3_alg».proof.Proof.EdgeSpec

noncomputable section

namespace Cert.ReferenceIdeal.RefLift

open Cert.ReferenceIdeal Cert.ReferenceIdeal.Gen Cert.ReferenceIdeal.Read
open Idealize.ShloMosaic Idealize.ShloMosaic.TcCoe Idealize.ShloMosaic.ValueIdx Cert.EdgeLift Cert.Lib.GatherRows

variable (adj : (⟨S2x625000, .i32⟩ : BufTy).Contents (Elt Ideal))
variable (hnn : ∀ i : S2x625000.Idx, 0 ≤ (adj i : BitVec 32).toInt)

include hnn in
/-- The source start index of edge `e` is the edge list's entry `(0, e)`. -/
theorem src_id (e : Fin 625000) : val_main_v9 (F := Ideal) adj (col e) = adj (ix2 (0 : Fin 2) e) := by
  have hidx : idx_main_v0 (idx_main_v1 (idx_main_v9 (col e))) = ix2 (0 : Fin 2) e := funext fun a => Fin.ext (by
    match a with
    | ⟨0, _⟩ => rfl
    | ⟨1, _⟩ => show e.val % 625000 = e.val; omega)
  have h1 : val_main_v1 (F := Ideal) adj (idx_main_v9 (col e)) = adj (ix2 (0 : Fin 2) e) := by
    rw [val_main_v1_apply, val_main_v0_apply, hidx]
  rw [val_main_v9_apply, val_main_v8_apply, val_main_v5_apply, h1, val_main_v4_apply, val_main_c_apply]
  exact keep_of_nonneg _ _ (hnn _)

include hnn in
/-- The target start index of edge `e` is the edge list's entry `(1, e)`. -/
theorem tgt_id (e : Fin 625000) : val_main_v18 (F := Ideal) adj (col e) = adj (ix2 (1 : Fin 2) e) := by
  have hidx : idx_main_v2 (idx_main_v3 (idx_main_v18 (col e))) = ix2 (1 : Fin 2) e := funext fun a => Fin.ext (by
    match a with
    | ⟨0, _⟩ => rfl
    | ⟨1, _⟩ => show e.val % 625000 = e.val; omega)
  have h1 : val_main_v3 (F := Ideal) adj (idx_main_v18 (col e)) = adj (ix2 (1 : Fin 2) e) := by
    rw [val_main_v3_apply, val_main_v2_apply, hidx]
  rw [val_main_v18_apply, val_main_v17_apply, val_main_v14_apply, h1, val_main_v13_apply, val_main_c_1_apply]
  exact keep_of_nonneg _ _ (hnn _)

variable (x0 : (⟨S50000x128, .f32⟩ : BufTy).Contents (Elt Ideal)) (w : (⟨S256x8, .f32⟩ : BufTy).Contents (Elt Ideal))

include hnn in
/-- The gathered source rows: row `e` is the features of the node the source id names. -/
theorem src_rows (e : Fin 625000) (k : Fin 128) :
    val_main_v10 (F := Ideal) x0 adj (ix2 e k) = x0 (ix2 (node (adj (ix2 (0 : Fin 2) e))) k) := by
  unfold val_main_v10
  rw [gather_rows_apply (by decide) gather_S50000x128_S625000x1_S625000x128_1_0_n_n_0_1_1128 rfl rfl rfl rfl rfl x0 (val_main_v9 (F := Ideal) adj) e k, src_id adj hnn e]

include hnn in
/-- The gathered target rows. -/
theorem tgt_rows (e : Fin 625000) (k : Fin 128) :
    val_main_v19 (F := Ideal) x0 adj (ix2 e k) = x0 (ix2 (node (adj (ix2 (1 : Fin 2) e))) k) := by
  unfold val_main_v19
  rw [gather_rows_apply (by decide) gather_S50000x128_S625000x1_S625000x128_1_0_n_n_0_1_1128 rfl rfl rfl rfl rfl x0 (val_main_v18 (F := Ideal) adj) e k, tgt_id adj hnn e]

include hnn in
/-- The source rows times rows 0–127 of `w`. -/
theorem src_score (e : Fin 625000) (h : Fin 8) :
    val_main_v12 (F := Ideal) x0 adj w (ix2 e h) = halfScore x0 w (node (adj (ix2 (0 : Fin 2) e))) 0 (by omega) h := by
  rw [val_main_v12_apply]
  unfold halfScore
  refine Finset.sum_congr rfl fun k _ => ?_
  rw [show lidx_main_v12 (ix2 e h) k = ix2 e k from funext fun a => by
    match a with
    | ⟨0, _⟩ => rfl
    | ⟨1, _⟩ => rfl, src_rows adj hnn x0 e k, val_main_v11_apply]
  congr 2
  funext a
  apply Fin.ext
  match a with
  | ⟨0, _⟩ => show k.val = 0 + k.val; omega
  | ⟨1, _⟩ => rfl

include hnn in
/-- The target rows times rows 128–255 of `w`. -/
theorem tgt_score (e : Fin 625000) (h : Fin 8) :
    val_main_v21 (F := Ideal) x0 adj w (ix2 e h) = halfScore x0 w (node (adj (ix2 (1 : Fin 2) e))) 128 (by omega) h := by
  rw [val_main_v21_apply]
  unfold halfScore
  refine Finset.sum_congr rfl fun k _ => ?_
  rw [show lidx_main_v21 (ix2 e h) k = ix2 e k from funext fun a => by
    match a with
    | ⟨0, _⟩ => rfl
    | ⟨1, _⟩ => rfl, tgt_rows adj hnn x0 e k, val_main_v20_apply]
  congr 2
  funext a
  apply Fin.ext
  match a with
  | ⟨0, _⟩ => show 128 + k.val = 128 + k.val; rfl
  | ⟨1, _⟩ => rfl

variable (x1 : (⟨S625000x64, .f32⟩ : BufTy).Contents (Elt Ideal))

include hnn in
/-- THE REFERENCE'S RESULT IS `lift`. -/
theorem reference_eq_lift : val_main_v24 (F := Ideal) x0 adj x1 w = lift x0 adj x1 w := by
  funext j
  unfold val_main_v24 lift liftAt
  by_cases h : (j 1).val < 8
  · rw [dif_pos h]
    refine (concatenate_pair_apply_left (t := S625000x72) (s₁ := S625000x8) (s₂ := S625000x64) (1 : Fin 2) _ _
      concatenates_S625000x8_S625000x64_S625000x72_d1 j (rfl : S625000x8.rank = S625000x72.rank)
      (ix2 (⟨(j 0).val, idx2_lt0 j⟩ : Fin 625000) (⟨(j 1).val, h⟩ : Fin 8)) ?_).trans ?_
    · intro b
      match b with
      | ⟨0, _⟩ => rfl
      | ⟨1, _⟩ => rfl
    · rw [val_main_v23_apply, val_main_v22_apply, src_score adj hnn x0 w, tgt_score adj hnn x0 w, val_main_call0_v0_apply,
        val_main_call0_cst_apply]
      simp only [Ideal.maximumf_def, Ideal.addf_def, Ideal.ofBits_def, Ideal.ofBits_zero_f32]
  · rw [dif_neg h]
    refine concatenate_pair_apply_right (t := S625000x72) (s₁ := S625000x8) (s₂ := S625000x64) (1 : Fin 2) _ _
      concatenates_S625000x8_S625000x64_S625000x72_d1 j (rfl : S625000x8.rank = S625000x72.rank)
      (rfl : S625000x64.rank = S625000x72.rank)
      (ix2 (⟨(j 0).val, idx2_lt0 j⟩ : Fin 625000) (⟨(j 1).val - 8, by have := idx2_lt1 j; omega⟩ : Fin 64)) ?_ ?_
    · intro b hb
      match b with
      | ⟨0, _⟩ => rfl
      | ⟨1, _⟩ => exact absurd rfl hb
    · show (j 1).val - 8 + 8 = (j 1).val
      omega

end Cert.ReferenceIdeal.RefLift

end
-- ==== Proof.NodeRange.lean ====
/-
  What the precondition says of the edge list: every node id is non-negative as a signed 32-bit word.
  The printed precondition is a conjunction of `jnp.all`s; its last conjunct reduces, by `and`, the comparison
  `adj ≥ 0` over the whole `[2, 625000]` array. A conjunction that is 1 has every conjunct 1, a reduce by `and` that
  is 1 had a 1 at every index, and a signed `≥` comparison that is 1 orders the words' integer values.
-/
import proofs.«405968_j67319317397857_3_alg».proof.Pre_finite_inputs
import Idealize.ShloMosaic.Lib.ReduceAll
import Idealize.ShloMosaic.Lib.ValueIdx

namespace Cert.NodeRange

open Idealize.ShloMosaic Cert.Pre_finite_inputs

instance : Subsingleton S_.Idx := ⟨fun a b => funext fun d => d.elim0⟩

/-- Under the precondition every entry of the edge list is a non-negative signed word. -/
theorem ids_nonneg {F : FTy → Type} [FloatOps F] [Facts] (x0 : FVec F S50000x128 .f32) (adj : IVec S2x625000 32)
    (x1 : FVec F S625000x64 .f32) (w : FVec F S256x8 .f32)
    (h : fn (F := F) x0 adj x1 w = fun _ => 1#1) (i : S2x625000.Idx) : 0 ≤ (adj i).toInt := by
  have h0 := congrFun h ValueIdx.ix0
  dsimp only [fn, fn_part1] at h0
  have h1 := (IntOp.andi_eq_one.1 h0).2
  have h2 := Host.reduce_andi_all _ _ _ _ _ h1 i
  exact IntOp.cmpi_sge.1 h2

end Cert.NodeRange
-- ==== Proof.lean ====
/-
  Kernel j67319317397857/3 against its reference: a graph "lift" layer. Every edge of a 625000-edge list gets, per
  head, the clamped-at-zero sum of its source node's features against rows 0–127 of the attention matrix and its
  target node's features against rows 128–255, followed by the edge's own 64 features.

  The reference gathers the two 128-wide feature rows per edge and multiplies each by its half of the matrix. The
  kernel multiplies every node's features by the two halves laid side by side once (a 16-wide table), picks table
  rows per edge, and adds. Row selection commutes with a row-by-row matrix product, so on the extended reals the two
  programs form the same sums term for term (Proof/EdgeSpec.lean, `combine_table`): no distributivity, so the float
  inputs' finiteness is never used.

  The two programs treat an out-of-range node id differently: the kernel clips every id into [0, 49999]; the
  reference wraps a negative id around (NumPy's convention) and its lookup clamps. They agree exactly when the id is
  non-negative, which the precondition states of the edge list; past the end both read the last row.

  The kernel's run and both regions' results: Proof/KernelIdealRun.lean, Proof/Projection.lean, Proof/EdgeRegion.lean,
  Proof/TakeRows.lean, Proof/KernelLift.lean. The reference: its generated run, read in Proof/RefLift.lean. The
  precondition read back: Proof/NodeRange.lean.
-/
import proofs.«405968_j67319317397857_3_alg».proof.Defs
import proofs.«405968_j67319317397857_3_alg».proof.Proof.Gen.Kernel
import proofs.«405968_j67319317397857_3_alg».proof.Proof.Gen.Kernel.Skeleton
import proofs.«405968_j67319317397857_3_alg».proof.Proof.Gen.Kernel.Launch
import proofs.«405968_j67319317397857_3_alg».proof.Proof.Gen.Kernel.Points
import proofs.«405968_j67319317397857_3_alg».proof.Proof.Gen.Kernel.Frame
import proofs.«405968_j67319317397857_3_alg».proof.Proof.Gen.KernelIdeal
import proofs.«405968_j67319317397857_3_alg».proof.Proof.Gen.KernelIdeal.Skeleton
import proofs.«405968_j67319317397857_3_alg».proof.Proof.Gen.KernelIdeal.Launch
import proofs.«405968_j67319317397857_3_alg».proof.Proof.Gen.KernelIdeal.Points
import proofs.«405968_j67319317397857_3_alg».proof.Proof.Gen.KernelIdeal.Frame
import proofs.«405968_j67319317397857_3_alg».proof.Proof.Gen.ReferenceIdeal
import proofs.«405968_j67319317397857_3_alg».proof.Proof.Gen.ReferenceIdeal.Run
import proofs.«405968_j67319317397857_3_alg».proof.Proof.Gen.ReferenceIdeal.Read
import proofs.«405968_j67319317397857_3_alg».proof.Proof.Gen.Pre_finite_inputs
import proofs.«405968_j67319317397857_3_alg».proof.Proof.KernelIdealRun
import proofs.«405968_j67319317397857_3_alg».proof.Proof.KernelLift
import proofs.«405968_j67319317397857_3_alg».proof.Proof.RefLift
import proofs.«405968_j67319317397857_3_alg».proof.Proof.NodeRange
import Idealize.ShloMosaic.Adequacy
import Idealize.ShloMosaic.Init

noncomputable section

namespace Cert.Proof

open Idealize.ShloMosaic Idealize.ShloMosaic.TcCoe Idealize.SL.Sem Cert.EdgeLift

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `lift` of the kernel's argument arrays: the kernel for any edge
    list, the reference because the precondition makes every id non-negative. -/
theorem algebraic : Cert.algebraic_KernelIdeal_ReferenceIdeal := by
  intro m ρ m' ρ' hpre hagree
  refine ⟨fun c => lift (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelLift.result_eq_lift m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2]
    exact Cert.ReferenceIdeal.RefLift.reference_eq_lift _
      (fun i => Cert.NodeRange.ids_nonneg _ _ _ _ (hpre c) i) _ _ _

theorem claim : Cert.Claim := ⟨Cert.Kernel.Gen.facts, Cert.KernelIdeal.Gen.facts, Cert.ReferenceIdeal.Gen.facts,
  Cert.Pre_finite_inputs.Gen.facts, frame_kernel, frame_kernel_ideal, frame_reference, trivial, algebraic⟩

end Cert.Proof

end
